-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024 .f32) (main_arg2 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x1024_S32768x1024 : S4x8192x1024.ShapeCasts S32768x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S4x8192x1024 : S32768x1024.ShapeCasts S4x8192x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)

variable [Facts₀]

class Facts : Prop extends Facts₀ where

variable [Facts]
-- ==== Proof.LayerNormSpec.lean ====
/-
  Affine layer normalisation of one row of 1024 extended reals, as both programs compute it at the ideal values.
  For a row `x₀ … x₁₀₂₃`:
    the mean            μ  = (Σₖ xₖ) / 1024,
    the centred moment  σ² = (Σₖ (xₖ − μ)·(xₖ − μ)) / 1024,
    entry j of the result      (xⱼ − μ) · (σ² + ε)^(−1/2) · aⱼ + bⱼ,
  with `/` the ideal quotient, `(·)^(−1/2)` the ideal reciprocal square root, `1024` and `ε` the extended reals the two
  float words denote (the same two words in both programs, so neither is ever evaluated), and the products and sums
  associated exactly as written. Nothing here needs the entries to be finite: both programs perform these operations in
  this order, so the two results are one term of the extended reals, infinite entries included.
  `result` is that function of the three argument arrays, index by index, over the shapes [4, 8192, 1024] and [1024]:
  entry (b, r, j) normalises row (b, r) and uses scale and shift j.
-/
import Idealize.ShloMosaic.PureOps.Ideal
import Idealize.ShloMosaic.Lib.ValueIdx

noncomputable section

open scoped BigOperators

namespace Cert.LayerNorm

open Idealize.ShloMosaic Idealize.ShloMosaic.ValueIdx

/-- The number of features, as the extended real both programs divide by. -/
abbrev featureCount : EReal := Ideal.ofBits .f32 0x44800000#32
/-- The stabiliser added to the variance, as the extended real both programs add. -/
abbrev epsilon : EReal := Ideal.ofBits .f32 0x3727C5AC#32

/-- A row's mean. -/
def rowMean (row : Fin 1024 → EReal) : EReal := Ideal.div (∑ k, row k) featureCount

/-- A row's centred second moment. -/
def rowVar (row : Fin 1024 → EReal) : EReal :=
  Ideal.div (∑ k, (row k - rowMean row) * (row k - rowMean row)) featureCount

/-- Entry `j` of the row, centred, scaled by the reciprocal standard deviation, then by `a`, and shifted by `b`. -/
def normed (row : Fin 1024 → EReal) (j : Fin 1024) (a b : EReal) : EReal :=
  (row j - rowMean row) * Ideal.rsqrt (rowVar row + epsilon) * a + b

/-- The whole result: entry `(b, r, j)` is entry `j` of row `(b, r)` normalised, with scale `α j` and shift `β j`. -/
def result (x : (⟨3, ![4, 8192, 1024]⟩ : Shape).Idx → EReal) (α β : (⟨1, ![1024]⟩ : Shape).Idx → EReal) :
    (⟨3, ![4, 8192, 1024]⟩ : Shape).Idx → EReal :=
  fun i => normed (fun k => x (ix3 (n0 := 4) (n1 := 8192) (n2 := 1024) (i 0) (i 1) k)) (i 2) (α (ix1 (i 2))) (β (ix1 (i 2)))

/-- The same over the rows laid out flat, [32768, 1024]: entry `(r, j)` is entry `j` of row `r` normalised. -/
def resultFlat (x : (⟨2, ![32768, 1024]⟩ : Shape).Idx → EReal) (α β : (⟨2, ![1, 1024]⟩ : Shape).Idx → EReal) :
    (⟨2, ![32768, 1024]⟩ : Shape).Idx → EReal :=
  fun i => normed (fun k => x (ix2 (n0 := 32768) (n1 := 1024) (i 0) k)) (i 1)
    (α (ix2 (0 : Fin 1) (i 1))) (β (ix2 (0 : Fin 1) (i 1)))

end Cert.LayerNorm

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.KernelRow.lean ====
/-
  The kernel body's one store, read at an entry of its [512, 1024] block. The body works row by row: the row sums
  over the 1024 lanes become a column, the column divided by 1024 is the column of means, broadcast back over the
  lanes and subtracted; the same again on the squares gives the column of variances; ε is added, the reciprocal
  square root taken, and the column broadcast back; scale and shift are single rows broadcast over the 512 rows.
  So entry (p, q) of the stored block is entry q of row p normalised as in `LayerNormSpec`, with the scale and the
  shift at lane q.
-/
import proofs.«142187_g1872605741567_pilotgen1_107_2_alg».proof.Proof.Gen.KernelIdeal.Skeleton
import proofs.«142187_g1872605741567_pilotgen1_107_2_alg».proof.Proof.LayerNormSpec
import proofs.«142187_g1872605741567_pilotgen1_107_2_alg».proof.Proof.LibKeepdims
import proofs.«142187_g1872605741567_pilotgen1_107_2_alg».proof.Proof.LibRowReduce
import Idealize.ShloMosaic.Lib.ValueLayout

noncomputable section

open scoped BigOperators

namespace Cert.KernelIdeal.Hand

open Cert.KernelIdeal Cert.KernelIdeal.Gen Idealize.ShloMosaic Idealize.ShloMosaic.ValueIdx
open Cert.LayerNorm Cert.Keepdims Idealize.ShloMosaic.RowReduce

/-- The column of row means of a block: the lane sums, as a column, divided by the feature count. -/
def colMean (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32 : Ideal .f32))

/-- The block with each row's mean subtracted. -/
def centredBlk (v : FVec Ideal S512x1024 .f32) : FVec Ideal S512x1024 .f32 :=
  subf v (broadcastTo S512x1024 (colMean v) broadcasts_S512x1_S512x1024)

/-- The column of reciprocal standard deviations: the mean of the centred squares, plus ε, under the reciprocal square root. -/
def rstdCol (v : FVec Ideal S512x1024 .f32) : FVec Ideal S512x1 .f32 :=
  rsqrt (addf (colMean (mulf (centredBlk v) (centredBlk v))) (broadcast S512x1 (Scalar.ofBits .f32 0x3727C5AC#32 : Ideal .f32)))

/-- The stored value in that vocabulary: the identity casts dropped, nothing else changed. -/
theorem pay_eq (x0 : Vec Ideal S512x1024 .f32) (a b : Vec Ideal S1x1024 .f32) :
    k0_pay1 (F := Ideal) x0 a b
      = addf (mulf (mulf (centredBlk x0) (broadcastTo S512x1024 (rstdCol x0) broadcasts_S512x1_S512x1024))
          (broadcastTo S512x1024 a broadcasts_S1x1024_S512x1024)) (broadcastTo S512x1024 b broadcasts_S1x1024_S512x1024) := by
  unfold k0_pay1 rstdCol centredBlk colMean
  simp only [shapeCast_self]

/-- The mean column at row `p` is the mean of the block's row `p`. -/
theorem colMean_apply (v : FVec Ideal S512x1024 .f32) (p : Fin 512) (u : Fin 1) :
    colMean v (ix2 p u) = rowMean (fun k => v (ix2 p k)) := by
  unfold colMean rowMean
  show Ideal.div (shapeCast S512x1 _ shapeCasts_S512_S512x1 (ix2 p u)) _ = _
  rw [shapeCast_a_a1_apply]
  exact congrArg (Ideal.div · featureCount) (multiReduction_add_row v _ _ _ _ p)

/-- The centred block at `(p, k)`. -/
theorem centred_apply (v : FVec Ideal S512x1024 .f32) (p : Fin 512) (k : Fin 1024) :
    centredBlk v (ix2 p k) = v (ix2 p k) - rowMean (fun k => v (ix2 p k)) := by
  unfold centredBlk
  show v (ix2 p k) - broadcastTo S512x1024 (colMean v) broadcasts_S512x1_S512x1024 (ix2 p k) = _
  rw [broadcastTo_a1_ab_apply, colMean_apply]

/-- The reciprocal standard deviation column at row `p`. -/
theorem rstd_apply (v : FVec Ideal S512x1024 .f32) (p : Fin 512) (u : Fin 1) :
    rstdCol v (ix2 p u) = Ideal.rsqrt (rowVar (fun k => v (ix2 p k)) + epsilon) := by
  unfold rstdCol
  show Ideal.rsqrt (colMean (mulf (centredBlk v) (centredBlk v)) (ix2 p u) + epsilon) = _
  rw [colMean_apply]
  have e : (fun k : Fin 1024 => mulf (centredBlk v) (centredBlk v) (ix2 p k))
      = fun k => (v (ix2 p k) - rowMean (fun k => v (ix2 p k))) * (v (ix2 p k) - rowMean (fun k => v (ix2 p k))) :=
    funext fun k => by rw [mulf_apply, centred_apply]
  rw [e]
  rfl

/-- THE STORED BLOCK at `(p, q)`: entry `q` of row `p` normalised, scaled by `a` and shifted by `b` at lane `q`. -/
theorem pay_apply (x0 : Vec Ideal S512x1024 .f32) (a b : Vec Ideal S1x1024 .f32) (p : Fin 512) (q : Fin 1024) :
    k0_pay1 (F := Ideal) x0 a b (ix2 p q)
      = normed (fun k => x0 (ix2 p k)) q (a (ix2 (0 : Fin 1) q)) (b (ix2 (0 : Fin 1) q)) := by
  rw [pay_eq]
  show ((centredBlk x0 (ix2 p q) * broadcastTo S512x1024 (rstdCol x0) broadcasts_S512x1_S512x1024 (ix2 p q))
      * broadcastTo S512x1024 a broadcasts_S1x1024_S512x1024 (ix2 p q))
      + broadcastTo S512x1024 b broadcasts_S1x1024_S512x1024 (ix2 p q) = _
  rw [broadcastTo_a1_ab_apply, broadcastTo_1b_ab_apply, broadcastTo_1b_ab_apply, centred_apply, rstd_apply]
  rfl

end Cert.KernelIdeal.Hand

end
-- ==== Proof.FlatRows.lean ====
/-
  The kernel normalises the rows laid out flat: the input [4, 8192, 1024] is viewed as [32768, 1024] (row (b, r)
  becomes row 8192·b + r, row-major), scale and shift [1024] as single rows [1, 1024], and the flat result is viewed
  back as [4, 8192, 1024]. Both views keep each row's 1024 entries together and in order, so the flat result viewed
  back is the result of `LayerNormSpec` on the original arrays. Also: an entry of the flat result is fixed by its row,
  its lane and the scale and shift at that lane, however those are presented.
-/
import proofs.«142187_g1872605741567_pilotgen1_107_2_alg».proof.Proof.LayerNormSpec
import Idealize.ShloMosaic.Lib.ValueLayout

noncomputable section

open scoped BigOperators

namespace Cert.LayerNorm

open Idealize.ShloMosaic Idealize.ShloMosaic.ValueIdx

/-- An entry of the flat result from its ingredients: a row equal to the array's row, the lane, and the scale and
    shift read at that lane. -/
theorem resultFlat_of_row (x : (⟨2, ![32768, 1024]⟩ : Shape).Idx → EReal) (α β : (⟨2, ![1, 1024]⟩ : Shape).Idx → EReal)
    (i : (⟨2, ![32768, 1024]⟩ : Shape).Idx) (row : Fin 1024 → EReal) (j : Fin 1024) (a b : EReal)
    (hrow : ∀ k, row k = x (ix2 (n0 := 32768) (n1 := 1024) (i 0) k)) (hj : j = i 1)
    (ha : a = α (ix2 (0 : Fin 1) j)) (hb : b = β (ix2 (0 : Fin 1) j)) :
    normed row j a b = resultFlat x α β i := by
  subst hj ha hb
  obtain rfl : row = fun k => x (ix2 (n0 := 32768) (n1 := 1024) (i 0) k) := funext hrow
  rfl

/-- The flat result of the flat views, viewed back, is the result. -/
theorem unflatten_resultFlat (x : (⟨3, ![4, 8192, 1024]⟩ : Shape).Idx → EReal) (α β : (⟨1, ![1024]⟩ : Shape).Idx → EReal)
    (hx : (⟨3, ![4, 8192, 1024]⟩ : Shape).ShapeCasts ⟨2, ![32768, 1024]⟩)
    (hv : (⟨1, ![1024]⟩ : Shape).ShapeCasts ⟨2, ![1, 1024]⟩)
    (ho : (⟨2, ![32768, 1024]⟩ : Shape).ShapeCasts ⟨3, ![4, 8192, 1024]⟩) :
    shapeCast ⟨3, ![4, 8192, 1024]⟩
        (resultFlat (shapeCast ⟨2, ![32768, 1024]⟩ x hx) (shapeCast ⟨2, ![1, 1024]⟩ α hv) (shapeCast ⟨2, ![1, 1024]⟩ β hv)) ho
      = result x α β := by
  funext i
  obtain ⟨b, r, c, rfl⟩ : ∃ (b : Fin 4) (r : Fin 8192) (c : Fin 1024), i = ix3 b r c := ⟨i 0, i 1, i 2, eq_ix3 i⟩
  have hlt : b.val * 8192 + r.val < 32768 := by have := b.isLt; have := r.isLt; omega
  rw [shapeCast_apply _ ho (ix3 b r c) (ix2 (⟨b.val * 8192 + r.val, hlt⟩ : Fin 32768) c)
    (by rw [Shape.rowMajor_val_two, Shape.rowMajor_val_three]; rfl)]
  have hrow : ∀ k : Fin 1024, shapeCast ⟨2, ![32768, 1024]⟩ x hx (ix2 (⟨b.val * 8192 + r.val, hlt⟩ : Fin 32768) k) = x (ix3 b r k) :=
    fun k => shapeCast_apply x hx _ _ (by rw [Shape.rowMajor_val_two, Shape.rowMajor_val_three]; rfl)
  show normed (fun k => shapeCast ⟨2, ![32768, 1024]⟩ x hx (ix2 (⟨b.val * 8192 + r.val, hlt⟩ : Fin 32768) k)) c
      (shapeCast ⟨2, ![1, 1024]⟩ α hv (ix2 (0 : Fin 1) c)) (shapeCast ⟨2, ![1, 1024]⟩ β hv (ix2 (0 : Fin 1) c))
    = normed (fun k => x (ix3 b r k)) c (α (ix1 c)) (β (ix1 c))
  rw [shapeCast_a_1a_apply α hv, shapeCast_a_1a_apply β hv, funext hrow]

end Cert.LayerNorm

end
-- ==== Proof.KernelValue.lean ====
/-
  What the kernel's program leaves in its result array. The program views the three arguments flat (rows
  [32768, 1024]; scale and shift as single rows [1, 1024]), runs the region over 64 grid points, and views the
  region's output back as [4, 8192, 1024].
  Point `t` reads rows 512·t … 512·t + 511 of the flat input and the one row of scale and of shift, and writes back
  the same rows of the output; by `KernelRow` each written entry is its row's normalisation, so the block written at
  `t` is block `t` of the flat result (`flushed_eq`). The 64 blocks tile the 32768 rows (row `i` lies in block
  `i / 512`), so the output array ends as the flat result (`final`), and viewed back it is the result of
  `LayerNormSpec` on the arguments (`FlatRows`).
-/
import proofs.«142187_g1872605741567_pilotgen1_107_2_alg».proof.Proof.Gen.KernelIdeal.Frame
import proofs.«142187_g1872605741567_pilotgen1_107_2_alg».proof.Proof.KernelRow
import proofs.«142187_g1872605741567_pilotgen1_107_2_alg».proof.Proof.FlatRows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LayerNorm

variable (m : (ℓ : Loc nD τ sig) → Buf (Elt Ideal) ℓ) (ρ : Dev nD → PrngReg)

theorem hz : (![0, 0] : Fin 2 → Nat) = fun _ => 0 := funext fun a => by fin_cases a <;> rfl

/-- The flat result of the arrays as the region finds them. -/
abbrev flatResult (c : Dev nD) : S32768x1024.Idx → Elt Ideal .f32 :=
  resultFlat (V m c main_v0) (V m c main_v1) (V m c main_v2)

/-- The printed index maps over the grid: the input's and the output's row block is the point, scale and shift stay
    at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input window's block at point `t` holds rows `512·t + p` of the flat input. -/
theorem xblk_apply (c : Dev nD) (t : Fin cfg0.N) (p : Fin 512) (k : Fin 1024) (i : S32768x1024.Idx)
    (hi0 : (i 0).val = t.val * 512 + p.val) (hi1 : (i 1).val = k.val) :
    (iblk m c 0 t : Vec Ideal S512x1024 .f32) (ix2 p k) = (V m c main_v0 : Vec Ideal S32768x1024 .f32) i := by
  obtain ⟨e00, e01, -⟩ := idx_facts t
  unfold iblk
  rw [View.read_apply]
  show V m c main_v0 _ = V m c main_v0 _
  congr 1
  funext a; apply Fin.ext
  match a with
  | ⟨0, _⟩ => show win0_0.index t (0 : Fin 2) * 512 + 1 * p.val = (i 0).val; rw [e00, hi0]; omega
  | ⟨1, _⟩ => show win0_0.index t (1 : Fin 2) * 1024 + 1 * k.val = (i 1).val; rw [e01, hi1]; omega

/-- The scale window's block at every point is the one row of scales. -/
theorem ablk_apply (c : Dev nD) (t : Fin cfg0.N) (q : Fin 1024) :
    (iblk m c 1 t : Vec Ideal S1x1024 .f32) (ix2 (0 : Fin 1) q) = (V m c main_v1 : Vec Ideal S1x1024 .f32) (ix2 (0 : Fin 1) q) := by
  obtain ⟨-, -, e10, e11, -⟩ := idx_facts t
  unfold iblk
  rw [View.read_apply]
  show V m c main_v1 _ = V m c main_v1 _
  congr 1
  funext a; apply Fin.ext
  match a with
  | ⟨0, _⟩ => show win0_1.index t (0 : Fin 2) * 1 + 1 * 0 = 0; rw [e10]
  | ⟨1, _⟩ => show win0_1.index t (1 : Fin 2) * 1024 + 1 * q.val = q.val; rw [e11]; omega

/-- The shift window's block at every point is the one row of shifts. -/
theorem bblk_apply (c : Dev nD) (t : Fin cfg0.N) (q : Fin 1024) :
    (iblk m c 2 t : Vec Ideal S1x1024 .f32) (ix2 (0 : Fin 1) q) = (V m c main_v2 : Vec Ideal S1x1024 .f32) (ix2 (0 : Fin 1) q) := by
  obtain ⟨-, -, -, -, e20, e21, -⟩ := idx_facts t
  unfold iblk
  rw [View.read_apply]
  show V m c main_v2 _ = V m c main_v2 _
  congr 1
  funext a; apply Fin.ext
  match a with
  | ⟨0, _⟩ => show win0_2.index t (0 : Fin 2) * 1 + 1 * 0 = 0; rw [e20]
  | ⟨1, _⟩ => show win0_2.index t (1 : Fin 2) * 1024 + 1 * q.val = q.val; rw [e21]; omega

/-- WHAT POINT `t` WRITES BACK is block `t` of the flat result. -/
theorem flushed_eq (c : Dev nD) (t : Fin cfg0.N) :
    (dats m 0 c).flushed 3 t = ((cfg0.win 3).blk t).view.read (Elt Ideal) (flatResult m c) := by
  show (cfg0.win 3).cut (grid0.coords t) ((dats m 0 c).after 3 t) = _
  rw [after0_3]
  unfold out0_3
  rw [View.canon_unit_zero hz]
  simp only [View.ld_unit_zero (S := S512x1024) hz, View.ld_unit_zero (S := S1x1024) hz]
  obtain ⟨-, -, -, -, -, -, e30, e31⟩ := idx_facts t
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (ix2 p q)
    = flatResult m c (((cfg0.win 3).blk t).view.emb (ix2 p q))
  have h0 : ((((cfg0.win 3).blk t).view.emb (ix2 p q)) 0).val = t.val * 512 + p.val := by
    show win0_3.index t (0 : Fin 2) * 512 + 1 * p.val = _; rw [e30]; omega
  have h1 : ((((cfg0.win 3).blk t).view.emb (ix2 p q)) 1).val = q.val := by
    show win0_3.index t (1 : Fin 2) * 1024 + 1 * q.val = _; rw [e31]; omega
  refine (pay_apply (iblk m c 0 t) (iblk m c 1 t) (iblk m c 2 t) p q).trans ?_
  refine resultFlat_of_row _ _ _ _ _ _ _ _ (fun k => ?_) (Fin.ext h1.symm) ?_ ?_
  · exact xblk_apply m c t p k _ h0 rfl
  · exact ablk_apply m c t q
  · exact bblk_apply m c t q

/-- An index of the output array is in point `t`'s block iff each coordinate is in the block's range on its axis. -/
theorem mem_blk (t : Fin cfg0.N) (i : S32768x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- THE OUTPUT ARRAY after the run is the flat result: row `i` lies in the block of point `i / 512`. -/
theorem final (c : Dev nD) : (dats m 0 c).arrAt 3 cfg0.N = flatResult m c :=
  (dats m 0 c).arrAt_eq_of_cover 3 (flatResult m c) (fun t _ => flushed_eq m c t) fun i => by
    have h0 : (i 0).val < 32768 := (i 0).isLt
    have h1 : (i 1).val < 1024 := (i 1).isLt
    have hN : cfg0.N = 64 := N_0
    have hlt : (i 0).val / 512 < cfg0.N := by rw [hN]; omega
    obtain ⟨-, -, -, -, -, -, e30, e31⟩ := idx_facts ⟨(i 0).val / 512, hlt⟩
    refine ⟨⟨(i 0).val / 512, hlt⟩, flush0_3 _, ?_⟩
    rw [mem_blk]
    intro a
    match a with
    | ⟨0, _⟩ =>
      show win0_3.index ⟨(i 0).val / 512, hlt⟩ (0 : Fin 2) * 512 ≤ (i 0).val
        ∧ (i 0).val < win0_3.index ⟨(i 0).val / 512, hlt⟩ (0 : Fin 2) * 512 + 512
      rw [e30]; show (i 0).val / 512 * 512 ≤ (i 0).val ∧ (i 0).val < (i 0).val / 512 * 512 + 512; omega
    | ⟨1, _⟩ =>
      show win0_3.index ⟨(i 0).val / 512, hlt⟩ (1 : Fin 2) * 1024 ≤ (i 1).val
        ∧ (i 1).val < win0_3.index ⟨(i 0).val / 512, hlt⟩ (1 : Fin 2) * 1024 + 1024
      rw [e31]; omega

/-- The flat views the region finds: each is the argument viewed in the flat shape. -/
theorem V_main_v0 (c : Dev nD) : (V m c main_v0 : Vec Ideal S32768x1024 .f32)
    = shapeCast S32768x1024 (m ((c : Thread nD τ).loc main_arg0)) shapeCasts_S4x8192x1024_S32768x1024 := by
  show StableHlo.after hostOps0 (fun b => m (c, b)) (Proc.devRef .tc main_v0) = _
  after_results
  rfl
theorem V_main_v1 (c : Dev nD) : (V m c main_v1 : Vec Ideal S1x1024 .f32)
    = shapeCast S1x1024 (m ((c : Thread nD τ).loc main_arg1)) shapeCasts_S1024_S1x1024 := by
  show StableHlo.after hostOps0 (fun b => m (c, b)) (Proc.devRef .tc main_v1) = _
  after_results
  rfl
theorem V_main_v2 (c : Dev nD) : (V m c main_v2 : Vec Ideal S1x1024 .f32)
    = shapeCast S1x1024 (m ((c : Thread nD τ).loc main_arg2)) shapeCasts_S1024_S1x1024 := by
  show StableHlo.after hostOps0 (fun b => m (c, b)) (Proc.devRef .tc main_v2) = _
  after_results
  rfl

/-- THE RESULT: the output array viewed back as [4, 8192, 1024] is the layer normalisation of the arguments. -/
theorem tail_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = flatResult m c :=
    (Pipeline.withArrays_arr spec0 launch0.win.arr_inj c _ _ 3).trans (final m c)
  rw [hw]
  unfold flatResult
  rw [V_main_v0, V_main_v1, V_main_v2]
  exact unflatten_resultFlat _ _ _ _ _ _

/-- The run, read: the result array at the layer normalisation of the arguments, the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefIsSpec.lean ====
/-
  The reference, stage by stage, is the layer normalisation of `LayerNormSpec`: its mean column at (b, r) is the
  mean of row (b, r) (the host's sum starts from the zero word, which adds nothing), its centred entries are the
  row's entries less that mean, its variance column is the mean of their squares, and its last stages scale by the
  reciprocal square root of variance plus ε, multiply by `α j` and add `β j`. Every stage is read at an index given by
  its coordinates, so each broadcast only forgets or restores a coordinate.
-/
import proofs.«142187_g1872605741567_pilotgen1_107_2_alg».proof.Proof.Gen.ReferenceIdeal.Read
import proofs.«142187_g1872605741567_pilotgen1_107_2_alg».proof.Proof.LayerNormSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.LayerNorm

variable (x : (⟨S4x8192x1024, .f32⟩ : BufTy).Contents (Elt Ideal))

/-- Row `(b, r)` of the input. -/
abbrev rowOf (b : Fin 4) (r : Fin 8192) : Fin 1024 → EReal := fun k => x (ix3 b r k)

/-- The mean column at `(b, r)` is the mean of row `(b, r)`. -/
theorem mean_apply (b : Fin 4) (r : Fin 8192) (u : Fin 1) :
    val_main_v3 (F := Ideal) x (ix3 b r u) = rowMean (rowOf x b r) := by
  rw [val_main_v3_apply, val_main_v1_apply, val_main_v0_apply, val_main_v2_apply, val_main_cst_0_apply, val_main_cst_apply]
  show Ideal.div (Ideal.ofBits .f32 0x00000000#32 + ∑ k : Fin 1024, x (idx_main_v0 (idx_main_v1 (ix3 b r u)) k))
    (Ideal.ofBits .f32 0x44800000#32) = _
  rw [Ideal.ofBits_zero_f32, zero_add]
  unfold rowMean
  refine congrArg (Ideal.div · featureCount) (Finset.sum_congr rfl fun k _ => congrArg x ?_)
  exact funext fun a => by match a with | ⟨0, _⟩ => rfl | ⟨1, _⟩ => rfl | ⟨2, _⟩ => rfl

/-- The centred entry at `(b, r, c)`. -/
theorem centred_apply (b : Fin 4) (r : Fin 8192) (c : Fin 1024) :
    val_main_v5 (F := Ideal) x (ix3 b r c) = x (ix3 b r c) - rowMean (rowOf x b r) := by
  have e : idx_main_v4 (ix3 b r c) = ix3 b r (0 : Fin 1) := funext fun a => by match a with | ⟨0, _⟩ => rfl | ⟨1, _⟩ => rfl | ⟨2, _⟩ => rfl
  rw [val_main_v5_apply, val_main_v4_apply, e, mean_apply]
  rfl

/-- The variance column at `(b, r)` is the centred second moment of row `(b, r)`. -/
theorem var_apply (b : Fin 4) (r : Fin 8192) (u : Fin 1) :
    val_main_v10 (F := Ideal) x (ix3 b r u) = rowVar (rowOf x b r) := by
  rw [val_main_v10_apply, val_main_v8_apply, val_main_v7_apply, val_main_v9_apply, val_main_cst_2_apply, val_main_cst_1_apply]
  show Ideal.div (Ideal.ofBits .f32 0x00000000#32
      + ∑ k : Fin 1024, val_main_v6 (F := Ideal) x (idx_main_v7 (idx_main_v8 (ix3 b r u)) k))
    (Ideal.ofBits .f32 0x44800000#32) = _
  rw [Ideal.ofBits_zero_f32, zero_add]
  unfold rowVar
  refine congrArg (Ideal.div · featureCount) (Finset.sum_congr rfl fun k _ => ?_)
  have e : idx_main_v7 (idx_main_v8 (ix3 b r u)) k = ix3 b r k := funext fun a => by match a with | ⟨0, _⟩ => rfl | ⟨1, _⟩ => rfl | ⟨2, _⟩ => rfl
  rw [e, val_main_v6_apply, centred_apply]
  rfl

/-- The reciprocal standard deviation column at `(b, r)`. -/
theorem rstd_apply (b : Fin 4) (r : Fin 8192) (u : Fin 1) :
    val_main_v15 (F := Ideal) x (ix3 b r u) = Ideal.rsqrt (rowVar (rowOf x b r) + epsilon) := by
  rw [val_main_v15_apply, val_main_v14_apply, var_apply, val_main_v13_apply, val_main_cst_3_apply]
  rfl

/-- The reference's last stage is the specification, index by index. -/
theorem result_eq (α β : (⟨S1024, .f32⟩ : BufTy).Contents (Elt Ideal)) :
    val_main_v23 (F := Ideal) x α β = Cert.LayerNorm.result x α β := by
  funext i
  obtain ⟨b, r, c, rfl⟩ : ∃ (b : Fin 4) (r : Fin 8192) (c : Fin 1024), i = ix3 b r c := ⟨i 0, i 1, i 2, eq_ix3 i⟩
  have e11 : idx_main_v11 (ix3 b r c) = ix3 b r (0 : Fin 1) := funext fun a => by match a with | ⟨0, _⟩ => rfl | ⟨1, _⟩ => rfl | ⟨2, _⟩ => rfl
  have e16 : idx_main_v16 (ix3 b r c) = ix3 b r (0 : Fin 1) := funext fun a => by match a with | ⟨0, _⟩ => rfl | ⟨1, _⟩ => rfl | ⟨2, _⟩ => rfl
  have e18 : idx_main_v18 (idx_main_v19 (ix3 b r c)) = ix1 c := funext fun a => by match a with | ⟨0, _⟩ => rfl
  have e21 : idx_main_v21 (idx_main_v22 (ix3 b r c)) = ix1 c := funext fun a => by match a with | ⟨0, _⟩ => rfl
  rw [val_main_v23_apply, val_main_v20_apply, val_main_v17_apply, val_main_v12_apply, val_main_v11_apply,
    val_main_v16_apply, val_main_v19_apply, val_main_v18_apply, val_main_v22_apply, val_main_v21_apply,
    e11, e16, e18, e21, mean_apply, rstd_apply]
  rfl

end Cert.ReferenceIdeal.RefValue

end
-- ==== Proof.lean ====
/-
  The kernel computes affine layer normalisation over the last axis of x : [4, 8192, 1024] with scale α and shift
  β : [1024], in one region over 64 blocks of 512 flat rows; the reference computes it with whole-array operations.
  Over the extended reals both are, entry by entry, the same term:
      out (b, r, j) = (x (b, r, j) − μ) · (σ² + ε)^(−1/2) · α j + β j,
      μ = (Σₖ x (b, r, k)) / 1024,   σ² = (Σₖ (x (b, r, k) − μ)²) / 1024,
  with the same words for 1024 and ε on both sides, the same quotient and reciprocal square root, and the sums over the
  same 1024 entries of one row (the host's sum starts from zero, which adds nothing). No law of arithmetic is needed
  beyond `0 + s = s`, so the precondition (finite inputs) is never opened.
  `LayerNormSpec` states the term; `RefIsSpec` reads the reference's stages down to it; `KernelRow` reads the body's
  stored block down to it, row by row; `KernelValue` assembles the 64 written blocks into the output array and follows
  the flat views in and out (`FlatRows`). The three frames are the generated ones (the reference's is its run with the
  result dropped); the idealisation rewrote nothing, so `preserves` is trivial.
-/
import proofs.«142187_g1872605741567_pilotgen1_107_2_alg».proof.Defs
import proofs.«142187_g1872605741567_pilotgen1_107_2_alg».proof.Proof.Gen.Kernel
import proofs.«142187_g1872605741567_pilotgen1_107_2_alg».proof.Proof.Gen.Kernel.Frame
import proofs.«142187_g1872605741567_pilotgen1_107_2_alg».proof.Proof.Gen.KernelIdeal
import proofs.«142187_g1872605741567_pilotgen1_107_2_alg».proof.Proof.Gen.KernelIdeal.Frame
import proofs.«142187_g1872605741567_pilotgen1_107_2_alg».proof.Proof.Gen.ReferenceIdeal
import proofs.«142187_g1872605741567_pilotgen1_107_2_alg».proof.Proof.Gen.ReferenceIdeal.Run
import proofs.«142187_g1872605741567_pilotgen1_107_2_alg».proof.Proof.Gen.ReferenceIdeal.Read
import proofs.«142187_g1872605741567_pilotgen1_107_2_alg».proof.Proof.Gen.Pre_finite_inputs
import proofs.«142187_g1872605741567_pilotgen1_107_2_alg».proof.Proof.KernelValue
import proofs.«142187_g1872605741567_pilotgen1_107_2_alg».proof.Proof.RefIsSpec
import Idealize.ShloMosaic.Adequacy
import Idealize.ShloMosaic.Init

noncomputable section

namespace Cert.Proof

open Idealize.ShloMosaic Idealize.SL.Sem

/-- Both idealised programs end with the layer normalisation of the (agreeing) arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
